-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16x512x64x64 .f32) (main_arg1 : FVec F S64x1024 .f32) (main_arg2 : FVec F S64 .f32) (main_arg3 : FVec F S512x64 .f32) (main_arg4 : FVec F S512 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S16x512x64x64 : Shape := ⟨4, ![16, 512, 64, 64]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S16x512x4096 : Shape := ⟨3, ![16, 512, 4096]⟩
abbrev S64x1 : Shape := ⟨2, ![64, 1]⟩
abbrev S512x1 : Shape := ⟨2, ![512, 1]⟩
abbrev S1x512x4096 : Shape := ⟨3, ![1, 512, 4096]⟩
abbrev S512x4096 : Shape := ⟨2, ![512, 4096]⟩
abbrev S512x512 : Shape := ⟨2, ![512, 512]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S64x1024, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S16x512x4096, .f32⟩
  | .hbm, ⟨6, _⟩ => ⟨S64x1, .f32⟩
  | .hbm, ⟨7, _⟩ => ⟨S512x1, .f32⟩
  | .hbm, ⟨8, _⟩ => ⟨S16x512x4096, .f32⟩
  | .hbm, ⟨9, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S64x1024, .f32⟩
  | .local _ .vmem, ⟨3, _⟩ => ⟨S64x1, .f32⟩
  | .local _ .vmem, ⟨4, _⟩ => ⟨S512x64, .f32⟩
  | .local _ .vmem, ⟨5, _⟩ => ⟨S512x1, .f32⟩
  | .local _ .vmem, ⟨6, _⟩ => ⟨S1x512x4096, .f32⟩
  | .local _ .vmem, ⟨7, _⟩ => ⟨S1x512x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x512x64x64_S16x512x4096 : S16x512x64x64.ShapeCasts S16x512x4096
  shapeCasts_S64_S64x1 : S64.ShapeCasts S64x1
  shapeCasts_S512_S512x1 : S512.ShapeCasts S512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  reduces_S512x512_S512 : S512x512.Reduces [1] S512
  broadcasts_S512x1_S512x512 : S512x1.Broadcasts S512x512
  shapeCasts_S512x4096_S1x512x4096 : S512x4096.ShapeCasts S1x512x4096
  reduces_S512x4096_S512 : S512x4096.Reduces [1] S512
  concatenates_S512x1_S512x1_S1024x1_d0 : Shape.Concatenates [S512x1, S512x1] S1024x1 0
  inb_S64x1024_S64x1024_0_0 : ∀ a, (![0, 0] : Fin 2 → Nat) a + S64x1024.size a ≤ S64x1024.size a
  h_S64x1024 : 0 < S64x1024.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S512x64_S512x64_0_0 : ∀ a, (![0, 0] : Fin 2 → Nat) a + S512x64.size a ≤ S512x64.size a
  h_S512x64 : 0 < S512x64.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  shapeCasts_S16x512x4096_S16x512x64x64 : S16x512x4096.ShapeCasts S16x512x64x64
  dot_S512x4096_S512x4096_S512x512_1_1_0_0_n_n_wf : DotDims.WF S512x4096 S512x4096 S512x512 [1] [1] [0] [0] [] []
  dot_S512x512_S512x4096_S512x4096_1_0_0_1_n_n_wf : DotDims.WF S512x512 S512x4096 S512x4096 [1] [0] [0] [1] [] []
  dot_S64x1024_S1024x1_S64x1_1_0_0_1_n_n_wf : DotDims.WF S64x1024 S1024x1 S64x1 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S16x512x4096.size a
  hwx0_5 : ∀ i : grid0.Coords, EltTy.bits .f32 = 32 ∨ (Rect.block (s := S16x512x4096) S1x512x4096.size (cc0_transform_5 i) (hinb0_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S64x1024_S1024x1_S64x1_1_0_0_1_n_n : DotDims S64x1024 S1024x1 S64x1 where
  lhsContracting := [1]
  rhsContracting := [0]
  lhsNonContracting := [0]
  rhsNonContracting := [1]
  lhsBatch := []
  rhsBatch := []
  wf := dot_S64x1024_S1024x1_S64x1_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S16x512x4096 : Shape := ⟨3, ![16, 512, 4096]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x1024x64x64 : Shape := ⟨4, ![16, 1024, 64, 64]⟩
abbrev S16x1024 : Shape := ⟨2, ![16, 1024]⟩
abbrev S1024x64 : Shape := ⟨2, ![1024, 64]⟩
abbrev S16x64 : Shape := ⟨2, ![16, 64]⟩
abbrev S1x64 : Shape := ⟨2, ![1, 64]⟩
abbrev S64x512 : Shape := ⟨2, ![64, 512]⟩
abbrev S1x512 : Shape := ⟨2, ![1, 512]⟩
abbrev S16x512x1x1 : Shape := ⟨4, ![16, 512, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S64x1024, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S16x512x4096, .f32⟩
  | .hbm, ⟨6, _⟩ => ⟨S16x512x512, .f32⟩
  | .hbm, ⟨7, _⟩ => ⟨S_, .f32⟩
  | .hbm, ⟨8, _⟩ => ⟨S16x512, .f32⟩
  | .hbm, ⟨9, _⟩ => ⟨S16x512x1, .f32⟩
  | .hbm, ⟨10, _⟩ => ⟨S16x512x512, .f32⟩
  | .hbm, ⟨11, _⟩ => ⟨S16x512x512, .f32⟩
  | .hbm, ⟨12, _⟩ => ⟨S_, .f32⟩
  | .hbm, ⟨13, _⟩ => ⟨S16x512, .f32⟩
  | .hbm, ⟨14, _⟩ => ⟨S_, .f32⟩
  | .hbm, ⟨15, _⟩ => ⟨S16x512, .f32⟩
  | .hbm, ⟨16, _⟩ => ⟨S16x512, .f32⟩
  | .hbm, ⟨17, _⟩ => ⟨S16x512x1, .f32⟩
  | .hbm, ⟨18, _⟩ => ⟨S16x512x512, .f32⟩
  | .hbm, ⟨19, _⟩ => ⟨S16x512x512, .f32⟩
  | .hbm, ⟨20, _⟩ => ⟨S16x512x512, .f32⟩
  | .hbm, ⟨21, _⟩ => ⟨S_, .f32⟩
  | .hbm, ⟨22, _⟩ => ⟨S16x512, .f32⟩
  | .hbm, ⟨23, _⟩ => ⟨S16x512x1, .f32⟩
  | .hbm, ⟨24, _⟩ => ⟨S16x512x512, .f32⟩
  | .hbm, ⟨25, _⟩ => ⟨S16x512x512, .f32⟩
  | .hbm, ⟨26, _⟩ => ⟨S16x512x4096, .f32⟩
  | .hbm, ⟨27, _⟩ => ⟨S16x512x64x64, .f32⟩
  | .hbm, ⟨28, _⟩ => ⟨S16x1024x64x64, .f32⟩
  | .hbm, ⟨29, _⟩ => ⟨S_, .f32⟩
  | .hbm, ⟨30, _⟩ => ⟨S16x1024, .f32⟩
  | .hbm, ⟨31, _⟩ => ⟨S_, .f32⟩
  | .hbm, ⟨32, _⟩ => ⟨S16x1024, .f32⟩
  | .hbm, ⟨33, _⟩ => ⟨S16x1024, .f32⟩
  | .hbm, ⟨34, _⟩ => ⟨S1024x64, .f32⟩
  | .hbm, ⟨35, _⟩ => ⟨S16x64, .f32⟩
  | .hbm, ⟨36, _⟩ => ⟨S1x64, .f32⟩
  | .hbm, ⟨37, _⟩ => ⟨S16x64, .f32⟩
  | .hbm, ⟨38, _⟩ => ⟨S16x64, .f32⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S64x512, .f32⟩
  | .hbm, ⟨43, _⟩ => ⟨S16x512, .f32⟩
  | .hbm, ⟨44, _⟩ => ⟨S1x512, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S_, .f32⟩
  | .hbm, ⟨50, _⟩ => ⟨S16x512, .f32⟩
  | .hbm, ⟨51, _⟩ => ⟨S16x512, .f32⟩
  | .hbm, ⟨52, _⟩ => ⟨S_, .f32⟩
  | .hbm, ⟨53, _⟩ => ⟨S16x512, .f32⟩
  | .hbm, ⟨54, _⟩ => ⟨S16x512, .f32⟩
  | .hbm, ⟨55, _⟩ => ⟨S16x512x1x1, .f32⟩
  | .hbm, ⟨56, _⟩ => ⟨S16x512x64x64, .f32⟩
  | .hbm, ⟨57, _⟩ => ⟨S16x512x64x64, .f32⟩
  | .hbm, ⟨58, _⟩ => ⟨S_, .f32⟩
  | .hbm, ⟨59, _⟩ => ⟨S16x512x1x1, .f32⟩
  | .hbm, ⟨60, _⟩ => ⟨S16x512x1x1, .f32⟩
  | .hbm, ⟨61, _⟩ => ⟨S16x512x64x64, .f32⟩
  | .hbm, ⟨62, _⟩ => ⟨S16x512x64x64, .f32⟩
  | .hbm, ⟨63, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512 : S_.BroadcastsInDim S16x512 (![] : Fin 0 → Fin S16x512.rank)
  shapeCasts_S16x512x4096_S16x512x64x64 : S16x512x4096.ShapeCasts S16x512x64x64
  concatenates_S16x512x64x64_S16x512x64x64_S16x1024x64x64_d1 : Shape.Concatenates [S16x512x64x64, S16x512x64x64] S16x1024x64x64 1
  reducesTo_S16x1024x64x64_S16x1024_d2_3 : S16x1024x64x64.ReducesTo [2, 3] S16x1024
  bcast_S_S16x1024 : S_.BroadcastsInDim S16x1024 (![] : Fin 0 → Fin S16x1024.rank)
  transposes_S64x1024_S1024x64_1_0 : S64x1024.Transposes [1, 0] S1024x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  transposes_S512x64_S64x512_1_0 : S512x64.Transposes [1, 0] S64x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x512x1x1_0_1 : S16x512.BroadcastsInDim S16x512x1x1 (![0, 1] : Fin 2 → Fin S16x512x1x1.rank)
  bcast_S16x512x1x1_S16x512x64x64_0_1_2_3 : S16x512x1x1.BroadcastsInDim S16x512x64x64 (![0, 1, 2, 3] : Fin 4 → Fin S16x512x64x64.rank)
  bcast_S_S16x512x1x1 : S_.BroadcastsInDim S16x512x1x1 (![] : Fin 0 → Fin S16x512x1x1.rank)
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]
  dot_S16x1024_S1024x64_S16x64_1_0_0_1_n_n_wf : DotDims.WF S16x1024 S1024x64 S16x64 [1] [0] [0] [1] [] []
  dot_S16x64_S64x512_S16x512_1_0_0_1_n_n_wf : DotDims.WF S16x64 S64x512 S16x512 [1] [0] [0] [1] [] []

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf
def dot_S16x1024_S1024x64_S16x64_1_0_0_1_n_n : DotDims S16x1024 S1024x64 S16x64 where
  lhsContracting := [1]
  rhsContracting := [0]
  lhsNonContracting := [0]
  rhsNonContracting := [1]
  lhsBatch := []
  rhsBatch := []
  wf := dot_S16x1024_S1024x64_S16x64_1_0_0_1_n_n_wf
def dot_S16x64_S64x512_S16x512_1_0_0_1_n_n : DotDims S16x64 S64x512 S16x512 where
  lhsContracting := [1]
  rhsContracting := [0]
  lhsNonContracting := [0]
  rhsNonContracting := [1]
  lhsBatch := []
  rhsBatch := []
  wf := dot_S16x64_S64x512_S16x512_1_0_0_1_n_n_wf

class Facts : Prop extends Facts₀ where

variable [Facts]
-- ==== Proof.Spec.lean ====
/-
  Channel attention with a squeeze-and-excitation gate, as one function of its arrays.

  For one batch, with X the input as a 512 × 4096 matrix (a channel's 64 × 64 plane laid out as one row):
    energy c d = Σₙ X c n · X d n                      the channels' Gram matrix
    flipped c d = (max_d' energy c d') − energy c d     every entry taken from its row's maximum
    weight c d = exp (flipped c d − max(−∞, max_d' flipped c d'))
    attn c d = weight c d / Σ_d' weight c d'            the softmax of a row of `flipped`
    mixed c n = Σ_d attn c d · X d n
    pooled k = (Σₙ X k n) / 4096 for k < 512, (Σₙ mixed (k − 512) n) / 4096 for k ≥ 512
    hidden j = max (Σₖ W₁ j k · pooled k + b₁ j) 0
    gate c = logistic (Σⱼ W₂ c j · hidden j + b₂ c)
    blend c n = gate c · X c n + (1 − gate c) · mixed c n
  Everything is read on the extended reals. The float constants stay the words the programs print (−∞, 0, 4096, 1):
  the same word stands on both sides of every equation below, so only 0 and 1 are ever given their values.
-/
import Idealize.ShloMosaic.PureOps.Ideal
import Idealize.ShloMosaic.PureOps.Ideal.Laws
import Idealize.ShloMosaic.Lib.ValueIdx

noncomputable section

namespace Cert.ChannelAttention

open Idealize.ShloMosaic Idealize.ShloMosaic.ValueIdx

/-- The four constants, as the words both programs print. -/
abbrev negInf : EReal := Ideal.ofBits .f32 0xFF800000#32
abbrev zeroW : EReal := Ideal.ofBits .f32 0x00000000#32
abbrev planeSize : EReal := Ideal.ofBits .f32 0x45800000#32
abbrev oneW : EReal := Ideal.ofBits .f32 0x3F800000#32

/-- The word 1.0 is the number one. -/
theorem oneW_eq : oneW = 1 := IdealRules.sign_bit.ideal_onePat .f32

/-- The word 0.0 is the number zero. -/
theorem zeroW_eq : zeroW = 0 := Ideal.ofBits_zero_f32

section OneBatch

variable (X : Fin 512 → Fin 4096 → EReal)

/-- The Gram matrix of the channels' rows. -/
def energy (c d : Fin 512) : EReal := ∑ n : Fin 4096, X c n * X d n

/-- A row's maximum, folded from −∞. -/
def rowMax (f : Fin 512 → EReal) : EReal := (Finset.univ : Finset (Fin 512)).fold max negInf f

/-- Each energy taken from its row's maximum. -/
def flipped (c d : Fin 512) : EReal := rowMax (energy X c) - energy X c d

/-- The softmax's numerator: the exponential of a row of `flipped` shifted by that row's maximum. -/
def weight (c d : Fin 512) : EReal := Ideal.exp (flipped X c d - max negInf (rowMax (flipped X c)))

/-- The attention matrix: each row of `weight` divided by its sum. -/
def attn (c d : Fin 512) : EReal := Ideal.div (weight X c d) (∑ d' : Fin 512, weight X c d')

/-- The channels mixed by the attention matrix. -/
def mixed (c : Fin 512) (n : Fin 4096) : EReal := ∑ d : Fin 512, attn X c d * X d n

/-- The plane means of the 512 input channels followed by those of the 512 mixed channels. -/
def pooled (k : Fin 1024) : EReal :=
  if h : k.val < 512 then Ideal.div (∑ n : Fin 4096, X ⟨k.val, h⟩ n) planeSize
  else Ideal.div (∑ n : Fin 4096, mixed X ⟨k.val - 512, by omega⟩ n) planeSize

variable (W1 : Fin 64 → Fin 1024 → EReal) (B1 : Fin 64 → EReal) (W2 : Fin 512 → Fin 64 → EReal) (B2 : Fin 512 → EReal)

/-- The gate's hidden layer. -/
def hidden (j : Fin 64) : EReal := max (∑ k : Fin 1024, W1 j k * pooled X k + B1 j) zeroW

/-- The gate of a channel. -/
def gate (c : Fin 512) : EReal := Ideal.logistic (∑ j : Fin 64, W2 c j * hidden X W1 B1 j + B2 c)

/-- The result: each channel blended with its mixed version by its gate. -/
def blend (c : Fin 512) (n : Fin 4096) : EReal :=
  gate X W1 B1 W2 B2 c * X c n + (oneW - gate X W1 B1 W2 B2 c) * mixed X c n

end OneBatch

/-- Position (h, w) of a 64 × 64 plane as a position of the flattened row. -/
def flat (h w : Fin 64) : Fin 4096 := ⟨64 * h.val + w.val, by omega⟩

/-- The row and the column of a flattened position. -/
def rowOf (n : Fin 4096) : Fin 64 := ⟨n.val / 64, by omega⟩
def colOf (n : Fin 4096) : Fin 64 := ⟨n.val % 64, by omega⟩

theorem rowOf_flat (h w : Fin 64) : rowOf (flat h w) = h := Fin.ext (by simp only [rowOf, flat]; omega)
theorem colOf_flat (h w : Fin 64) : colOf (flat h w) = w := Fin.ext (by simp only [colOf, flat]; omega)
theorem flat_rowOf_colOf (n : Fin 4096) : flat (rowOf n) (colOf n) = n := Fin.ext (by simp only [rowOf, colOf, flat]; omega)

/-- Batch `b` of the input as a 512 × 4096 matrix. -/
def batchRows (x : (⟨4, ![16, 512, 64, 64]⟩ : Shape).Idx → EReal) (b : Fin 16) : Fin 512 → Fin 4096 → EReal :=
  fun c n => x (ix4 b c (rowOf n) (colOf n))

/-- The whole result array as a function of the five argument arrays. -/
def result (x : (⟨4, ![16, 512, 64, 64]⟩ : Shape).Idx → EReal) (w1 : (⟨2, ![64, 1024]⟩ : Shape).Idx → EReal)
    (b1 : (⟨1, ![64]⟩ : Shape).Idx → EReal) (w2 : (⟨2, ![512, 64]⟩ : Shape).Idx → EReal)
    (b2 : (⟨1, ![512]⟩ : Shape).Idx → EReal) : (⟨4, ![16, 512, 64, 64]⟩ : Shape).Idx → EReal :=
  fun i => blend (batchRows x (i 0)) (fun j k => w1 (ix2 j k)) (fun j => b1 (ix1 j)) (fun c j => w2 (ix2 c j))
    (fun c => b2 (ix1 c)) (i 1) (flat (i 2) (i 3))

end Cert.ChannelAttention

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibRowsProduct.lean ====
/-
  The product of an [R, K] array with the transpose of a [C, K] array — both operands contracted along their axis 1,
  no batch axes — read at (r, c) on the extended reals: the sum over k of  lhs(r, k) · rhs(c, k) . With the two operands
  one array this is the Gram matrix of its rows. It holds for the matrix unit's product into a zero accumulator and for
  the host's general product alike: both are the same sum over the one-axis contraction index, re-indexed here by its
  one coordinate.
-/
import Idealize.ShloMosaic.PureOps.Ideal.Laws
import Idealize.ShloMosaic.Lib.ValueIdx

noncomputable section

open scoped BigOperators

namespace Cert.LibRowsProduct

open Idealize.ShloMosaic Idealize.ShloMosaic.ValueIdx

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- The left operand's row is the result's row. -/
theorem lhsIdx_row {R K C : ℕ} (d : DotDims ⟨2, ![R, K]⟩ ⟨2, ![C, K]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right operand's row is the result's column. -/
theorem rhsIdx_row {R K C : ℕ} (d : DotDims ⟨2, ![R, K]⟩ ⟨2, ![C, K]⟩ ⟨2, ![R, C]⟩)
    (h3 : d.lhsNonContracting = [0]) (h4 : d.rhsNonContracting = [0]) (h5 : d.lhsBatch = []) (h6 : d.rhsBatch = [])
    (j : (⟨2, ![R, C]⟩ : Shape).Idx) (k : d.contr.Idx) : (d.rhsIdx j k 0).val = (j 1).val := by
  have hb : (0 : Fin 2) ∉ d.rhsBatch := by rw [h6]; exact List.not_mem_nil
  have hn : (0 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index, as the sum over k of  lhs(r, k) · rhs(c, k) . -/
theorem contr_sum {R K C : ℕ} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (lhs : (⟨2, ![R, K]⟩ : Shape).Idx → EReal) (rhs : (⟨2, ![C, K]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 c k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k), the right one at (c, k)
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  have er : d.rhsIdx (ix2 r c) ((contrEquiv1 d K hr hs).symm k) = ix2 c k := by
    funext a
    match a with
    | ⟨0, _⟩ => exact Fin.ext (rhsIdx_row d h3 h4 h5 h6 (ix2 r c) _)
    | ⟨1, _⟩ => exact Fin.ext ((d.rhsIdx_val_of_single h2 (ix2 r c) _).trans hk)
  rw [el, er]

/-- The matrix unit's product into a zero accumulator, at (r, c). -/
theorem matmul_zero_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    matmul d prec lhs rhs (constant ⟨2, ![R, C]⟩ .f32 0x00000000#32) (ix2 r c)
      = ∑ k : Fin K, lhs (ix2 r k) * rhs (ix2 c k) := by
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    Host.dotGeneral d prec lhs rhs (ix2 r c) = ∑ k : Fin K, lhs (ix2 r k) * rhs (ix2 c k) := by
  simp only [Host.dotGeneral]
  rw [Ideal.dotGeneral_apply]
  exact contr_sum d h1 h2 h3 h4 h5 h6 lhs rhs r c

end Cert.LibRowsProduct

end
-- ==== Proof.LibRowMax.lean ====
/-
  The maximum over the last axis of an [a, b] matrix, on the extended reals, read at row i: the fold of `max`, from the
  value of the start word, over the columns c of the matrix's entry at (i, c) — in any order, `max` being commutative
  and associative.
-/
import Idealize.ShloMosaic.PureOps.Ideal.Laws
import Idealize.ShloMosaic.Lib.ValueIdx

namespace Cert.LibRowMax

open Idealize.ShloMosaic Idealize.ShloMosaic.ValueIdx

/-- The row with the column coordinate put back is the entry (i, c). -/
theorem lift_row {a b : ℕ} (h : (⟨2, ![a, b]⟩ : Shape).Reduces [1] ⟨1, ![a]⟩) (i : Fin a) (c : Fin b) :
    h.lift (ix1 i) c = ix2 i c := by
  funext ax
  match ax with
  | ⟨0, _⟩ => rfl
  | ⟨1, _⟩ => rfl

/-- The row maximum at i, folded from the start word's value over the columns. -/
theorem rowMax_apply {a b : ℕ} (src : FVec Ideal (⟨2, ![a, b]⟩ : Shape) .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun c => src (ix2 i c)) := by
  refine (Ideal.multiReduction_maximumf_single src acc h hφ hacc (ix1 i)).trans ?_
  have e : (src ∘ h.lift (ix1 i)) = fun c : Fin b => src (ix2 i c) :=
    funext fun c => congrArg src (lift_row h i c)
  rw [e]
  rfl

end Cert.LibRowMax
-- ==== Proof.KernelBlock.lean ====
/-
  What the kernel's body leaves in its output block, as a function of the five input blocks.

  The body stores the block twice: first the channels mixed by the attention matrix, then — after reading that
  store back for the plane means and for the final combination — the blend of each channel with its mixed version.
  The second store covers the whole block, so the block ends at the second store's value, in which every read of
  the output buffer is the first store's value (`block_eq`). Read at channel `ch` and position `n`, that value is
  `ChannelAttention.blend` of the input blocks (`block_apply`).
-/
import proofs.«153733_j50646254355183_1_alg».proof.Proof.Gen.KernelIdeal.Frame
import proofs.«153733_j50646254355183_1_alg».proof.Proof.Spec
import proofs.«153733_j50646254355183_1_alg».proof.Proof.LibKeepdimsColumn
import proofs.«153733_j50646254355183_1_alg».proof.Proof.LibDense
import proofs.«153733_j50646254355183_1_alg».proof.Proof.LibRowsProduct
import proofs.«153733_j50646254355183_1_alg».proof.Proof.LibRowMax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockValue

open Cert.KernelIdeal Cert.KernelIdeal.Gen
open Idealize.ShloMosaic Idealize.ShloMosaic.TcCoe Idealize.ShloMosaic.Tactic Idealize.ShloMosaic.ValueIdx Idealize.SL.Sem

theorem zeros2 : (![0, 0] : Fin 2 → Nat) = fun _ => 0 := funext fun a => by fin_cases a <;> rfl

theorem zeros3 : (![0, 0, 0] : Fin 3 → Nat) = fun _ => 0 := funext fun a => by fin_cases a <;> rfl

section AnyFloat

variable {F : FTy → Type} [FloatOps F]

/-- The block after the body is the second store's value with the first store's value read back. -/
theorem block_eq (c : Dev nD) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole)
    (x0 : Vec F S1x512x4096 .f32) (x1 : Vec F S64x1024 .f32) (x2 : Vec F S64x1 .f32) (x3 : Vec F S512x64 .f32) (x4 : Vec F S512x1 .f32) :
    out0_A_5 (F := F) c i arg1 harg1 arg2 harg2 arg3 harg3 arg4 harg4 arg5 harg5 arg6 harg6 x0 x1 x2 x3 x4
      = k0_pay1 (k0_pay2 x0) (k0_pay4 x0 (k0_pay3 x0)) x1 x2 x3 x4 (k0_pay3 x0) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_cons_unit_zero (S := S1x512x4096) zeros3]
  simp only [View.readCov_unit_zero (S := S1x512x4096) _ zeros3, View.readAt_eq_ld, harg1.read_unread, harg2.read_unread,
    harg3.read_unread, harg4.read_unread, harg5.read_unread, View.ld_unit_zero (S := S1x512x4096) zeros3,
    View.ld_unit_zero (S := S64x1024) zeros2, View.ld_unit_zero (S := S64x1) zeros2, View.ld_unit_zero (S := S512x64) zeros2,
    View.ld_unit_zero (S := S512x1) zeros2]

end AnyFloat

/-! ## The payloads over named stages, on the extended reals -/

theorem exp_apply {s : Shape} (v : FVec Ideal s .f32) (i : s.Idx) : exp v i = Ideal.exp (v i) := rfl

theorem logistic_apply {s : Shape} (v : FVec Ideal s .f32) (i : s.Idx) : logistic v i = Ideal.logistic (v i) := rfl

/-- A 512-vector laid out as a column and spread over `b` columns reads, at (c, d), the vector at c. -/
theorem spread512_apply (v : FVec Ideal S512 .f32) (c d : Fin 512) :
    broadcastTo S512x512 (shapeCast S512x1 v shapeCasts_S512_S512x1) broadcasts_S512x1_S512x512 (ix2 c d) = v (ix1 c) :=
  (Cert.LibKeepdimsColumn.broadcastTo_a1_ab_apply _ _ c d).trans (Cert.LibKeepdimsColumn.shapeCast_a_a1_apply v _ c 0)

section Stages

variable (x0 : Vec Ideal S1x512x4096 .f32)

/-- The input block's rows as functions of coordinates. -/
abbrev rowsOf : Fin 512 → Fin 4096 → EReal := fun c n => x0 (ix3 (0 : Fin 1) c n)

/-- The block as a 512 × 4096 matrix. -/
def rowsV : FVec Ideal S512x4096 .f32 := k0_pay2 x0

/-- The Gram matrix of the rows. -/
def gramV : FVec Ideal S512x512 .f32 :=
  matmul dot_S512x4096_S512x4096_S512x512_1_1_0_0_n_n none (truncf .bf16 (rowsV x0) bitsLt_bf16_f32)
    (truncf .bf16 (rowsV x0) bitsLt_bf16_f32) (constant S512x512 .f32 0x00000000#32)

/-- Each entry taken from its row's maximum. -/
def flippedV : FVec Ideal S512x512 .f32 :=
  subf (broadcastTo S512x512 (shapeCast S512x1
      (multiReduction .maximumf [1] S512 (gramV x0) 0xFF800000#32 reduces_S512x512_S512 (.inl rfl) rfl)
      shapeCasts_S512_S512x1) broadcasts_S512x1_S512x512) (gramV x0)

/-- The exponential of each entry of `flippedV` less its row's maximum. -/
def weightV : FVec Ideal S512x512 .f32 :=
  exp (subf (flippedV x0) (broadcastTo S512x512 (shapeCast S512x1
      (maximumf (broadcast S512 (Scalar.ofBits .f32 0xFF800000#32))
        (multiReduction .maximumf [1] S512 (flippedV x0) 0xFF800000#32 reduces_S512x512_S512 (.inl rfl) rfl))
      shapeCasts_S512_S512x1) broadcasts_S512x1_S512x512))

/-- Each row of `weightV` divided by its sum. -/
def attnV : FVec Ideal S512x512 .f32 :=
  divf (weightV x0) (broadcastTo S512x512 (shapeCast S512x1
      (multiReduction .add [1] S512 (weightV x0) 0x00000000#32 reduces_S512x512_S512 (.inl rfl) rfl)
      shapeCasts_S512_S512x1) broadcasts_S512x1_S512x512)

/-- The rows mixed by the attention matrix. -/
def mixedV : FVec Ideal S512x4096 .f32 :=
  matmul dot_S512x512_S512x4096_S512x4096_1_0_0_1_n_n none (truncf .bf16 (attnV x0) bitsLt_bf16_f32)
    (truncf .bf16 (rowsV x0) bitsLt_bf16_f32) (constant S512x4096 .f32 0x00000000#32)

/-- The first store's value is the mixed rows as a one-batch block. -/
theorem firstStore_eq : k0_pay3 x0 = shapeCast S1x512x4096 (mixedV x0) shapeCasts_S512x4096_S1x512x4096 := rfl

/-- The plane means of the input rows, then those of what the output buffer holds. -/
def pooledV (v28 : Vec Ideal S1x512x4096 .f32) : FVec Ideal S1024x1 .f32 :=
  concatenate S1024x1 0
    [⟨S512x1, divf (shapeCast S512x1
        (multiReduction .add [1] S512 (rowsV x0) 0x00000000#32 reduces_S512x4096_S512 (.inl rfl) rfl) shapeCasts_S512_S512x1)
        (broadcast S512x1 (Scalar.ofBits .f32 0x45800000#32))⟩,
     ⟨S512x1, divf (shapeCast S512x1
        (multiReduction .add [1] S512 (shapeCast S512x4096 v28 shapeCasts_S1x512x4096_S512x4096) 0x00000000#32
          reduces_S512x4096_S512 (.inl rfl) rfl) shapeCasts_S512_S512x1)
        (broadcast S512x1 (Scalar.ofBits .f32 0x45800000#32))⟩]
    concatenates_S512x1_S512x1_S1024x1_d0

theorem pooled_eq (v28 : Vec Ideal S1x512x4096 .f32) :
    k0_pay4 x0 v28 = truncf .bf16 (pooledV x0 v28) bitsLt_bf16_f32 := rfl

end Stages

/-- The gate's hidden layer, from the pooled column and the first layer's weights and bias. -/
def hiddenV (p : FVec Ideal S1024x1 .bf16) (x1 : Vec Ideal S64x1024 .f32) (x2 : Vec Ideal S64x1 .f32) : FVec Ideal S64x1 .f32 :=
  maximumf (addf (matmul dot_S64x1024_S1024x1_S64x1_1_0_0_1_n_n none (truncf .bf16 x1 bitsLt_bf16_f32) p
      (constant S64x1 .f32 0x00000000#32)) (shapeCast S64x1 x2 shapeCasts_S64x1_S64x1))
    (broadcast S64x1 (Scalar.ofBits .f32 0x00000000#32))

/-- The gate, from the hidden layer and the second layer's weights and bias. -/
def gateV (h : FVec Ideal S64x1 .f32) (x3 : Vec Ideal S512x64 .f32) (x4 : Vec Ideal S512x1 .f32) : FVec Ideal S512x1 .f32 :=
  logistic (addf (matmul dot_S512x64_S64x1_S512x1_1_0_0_1_n_n none (truncf .bf16 x3 bitsLt_bf16_f32)
      (truncf .bf16 h bitsLt_bf16_f32) (constant S512x1 .f32 0x00000000#32)) (shapeCast S512x1 x4 shapeCasts_S512x1_S512x1))

/-- Each row blended with what the output buffer holds, by the gate. -/
def blendV (g : FVec Ideal S512x1 .f32) (v1 : FVec Ideal S512x4096 .f32) (v56 : Vec Ideal S1x512x4096 .f32) :
    FVec Ideal S512x4096 .f32 :=
  addf (mulf (broadcastTo S512x4096 g broadcasts_S512x1_S512x4096) v1)
    (mulf (broadcastTo S512x4096 (subf (broadcast S512x1 (Scalar.ofBits .f32 0x3F800000#32)) g) broadcasts_S512x1_S512x4096)
      (shapeCast S512x4096 v56 shapeCasts_S1x512x4096_S512x4096))

/-- The second store's value over those stages. -/
theorem secondStore_eq (v1 : FVec Ideal S512x4096 .f32) (v35 : FVec Ideal S1024x1 .bf16) (v36 : Vec Ideal S64x1024 .f32)
    (v39 : Vec Ideal S64x1 .f32) (v45 : Vec Ideal S512x64 .f32) (v48 : Vec Ideal S512x1 .f32) (v56 : Vec Ideal S1x512x4096 .f32) :
    k0_pay1 v1 v35 v36 v39 v45 v48 v56
      = shapeCast S1x512x4096 (blendV (gateV (hiddenV v35 v36 v39) v45 v48) v1 v56) shapeCasts_S512x4096_S1x512x4096 := rfl

/-! ## The stages at coordinates -/

open Cert.ChannelAttention

section StagesAt

variable (x0 : Vec Ideal S1x512x4096 .f32)

theorem rows_apply (c : Fin 512) (n : Fin 4096) : rowsV x0 (ix2 c n) = rowsOf x0 c n :=
  shapeCast_apply x0 shapeCasts_S1x512x4096_S512x4096 (ix2 c n) (ix3 (0 : Fin 1) c n) (by
    rw [Shape.rowMajor_val_three, Shape.rowMajor_val_two]
    show (0 * 512 + c.val) * 4096 + n.val = c.val * 4096 + n.val
    omega)

theorem gram_apply (c d : Fin 512) : gramV x0 (ix2 c d) = energy (rowsOf x0) c d := by
  unfold gramV energy
  refine (Cert.LibRowsProduct.matmul_zero_apply dot_S512x4096_S512x4096_S512x512_1_1_0_0_n_n rfl rfl rfl rfl rfl rfl
    none _ _ c d).trans ?_
  refine Finset.sum_congr rfl fun n _ => ?_
  show rowsV x0 (ix2 c n) * rowsV x0 (ix2 d n) = _
  rw [rows_apply, rows_apply]

theorem gramMax_apply (c : Fin 512) :
    multiReduction .maximumf [1] S512 (gramV x0) 0xFF800000#32 reduces_S512x512_S512 (.inl rfl) rfl (ix1 c)
      = rowMax (energy (rowsOf x0) c) := by
  refine (Cert.LibRowMax.rowMax_apply (gramV x0) _ _ _ _ c).trans ?_
  unfold rowMax
  exact congrArg (Finset.univ.fold max negInf) (funext fun d => gram_apply x0 c d)

theorem flipped_apply (c d : Fin 512) : flippedV x0 (ix2 c d) = flipped (rowsOf x0) c d := by
  unfold flippedV flipped
  rw [subf_apply, spread512_apply, gramMax_apply, gram_apply]

theorem flippedMax_apply (c : Fin 512) :
    multiReduction .maximumf [1] S512 (flippedV x0) 0xFF800000#32 reduces_S512x512_S512 (.inl rfl) rfl (ix1 c)
      = rowMax (flipped (rowsOf x0) c) := by
  refine (Cert.LibRowMax.rowMax_apply (flippedV x0) _ _ _ _ c).trans ?_
  unfold rowMax
  exact congrArg (Finset.univ.fold max negInf) (funext fun d => flipped_apply x0 c d)

theorem weight_apply (c d : Fin 512) : weightV x0 (ix2 c d) = weight (rowsOf x0) c d := by
  unfold weightV weight
  rw [exp_apply, subf_apply, spread512_apply, maximumf_apply, broadcast_apply, flipped_apply, flippedMax_apply]
  rfl

theorem attn_apply (c d : Fin 512) : attnV x0 (ix2 c d) = attn (rowsOf x0) c d := by
  unfold attnV attn
  rw [divf_apply, spread512_apply, weight_apply, Cert.LibKeepdimsColumn.rowSum_apply]
  exact congrArg (Ideal.div _) (Finset.sum_congr rfl fun d' _ => weight_apply x0 c d')

theorem mixed_apply (c : Fin 512) (n : Fin 4096) : mixedV x0 (ix2 c n) = mixed (rowsOf x0) c n := by
  unfold mixedV mixed
  refine (Cert.Dense.matmul_zero_plain_apply dot_S512x512_S512x4096_S512x4096_1_0_0_1_n_n rfl rfl rfl rfl rfl rfl
    none _ _ c n).trans ?_
  refine Finset.sum_congr rfl fun d _ => ?_
  show attnV x0 (ix2 c d) * rowsV x0 (ix2 d n) = _
  rw [attn_apply, rows_apply]

/-- The first store's value at channel c, position n. -/
theorem firstStore_apply (c : Fin 512) (n : Fin 4096) : k0_pay3 x0 (ix3 (0 : Fin 1) c n) = mixed (rowsOf x0) c n := by
  rw [firstStore_eq]
  refine (shapeCast_apply (mixedV x0) shapeCasts_S512x4096_S1x512x4096 (ix3 (0 : Fin 1) c n) (ix2 c n) (by
    rw [Shape.rowMajor_val_three, Shape.rowMajor_val_two]
    show c.val * 4096 + n.val = (0 * 512 + c.val) * 4096 + n.val
    omega)).trans ?_
  exact mixed_apply x0 c n

/-- The first store's value read back as a matrix. -/
theorem readBack_apply (c : Fin 512) (n : Fin 4096) :
    shapeCast S512x4096 (k0_pay3 x0) shapeCasts_S1x512x4096_S512x4096 (ix2 c n) = mixed (rowsOf x0) c n :=
  (shapeCast_apply (k0_pay3 x0) shapeCasts_S1x512x4096_S512x4096 (ix2 c n) (ix3 (0 : Fin 1) c n) (by
    rw [Shape.rowMajor_val_three, Shape.rowMajor_val_two]
    show (0 * 512 + c.val) * 4096 + n.val = c.val * 4096 + n.val
    omega)).trans (firstStore_apply x0 c n)

/-- The pooled column at k. -/
theorem pooled_apply (k : Fin 1024) : pooledV x0 (k0_pay3 x0) (ix2 k (0 : Fin 1)) = pooled (rowsOf x0) k := by
  unfold pooledV pooled
  by_cases hk : k.val < 512
  · rw [dif_pos hk]
    refine (concatenate_pair_apply_left (t := S1024x1) (s₁ := S512x1) (s₂ := S512x1) (0 : Fin 2) _ _ concatenates_S512x1_S512x1_S1024x1_d0 (ix2 k (0 : Fin 1)) rfl
      (ix2 (⟨k.val, hk⟩ : Fin 512) (0 : Fin 1)) (fun b => by match b with | ⟨0, _⟩ => rfl | ⟨1, _⟩ => rfl)).trans ?_
    rw [divf_apply, Cert.LibKeepdimsColumn.shapeCast_a_a1_apply, broadcast_apply, Cert.LibKeepdimsColumn.rowSum_apply]
    exact congrArg (fun s => Ideal.div s planeSize) (Finset.sum_congr rfl fun n _ => rows_apply x0 _ n)
  · rw [dif_neg hk]
    refine (concatenate_pair_apply_right (t := S1024x1) (s₁ := S512x1) (s₂ := S512x1) (0 : Fin 2) _ _ concatenates_S512x1_S512x1_S1024x1_d0 (ix2 k (0 : Fin 1)) rfl rfl
      (ix2 (⟨k.val - 512, by omega⟩ : Fin 512) (0 : Fin 1))
      (fun b hb => by
        match b with
        | ⟨0, _⟩ => exact absurd rfl hb
        | ⟨1, _⟩ => rfl)
      (by show k.val - 512 + 512 = k.val; omega)).trans ?_
    rw [divf_apply, Cert.LibKeepdimsColumn.shapeCast_a_a1_apply, broadcast_apply, Cert.LibKeepdimsColumn.rowSum_apply]
    exact congrArg (fun s => Ideal.div s planeSize) (Finset.sum_congr rfl fun n _ => readBack_apply x0 _ n)

end StagesAt

/-- The hidden layer at j. -/
theorem hidden_apply (p : FVec Ideal S1024x1 .bf16) (x1 : Vec Ideal S64x1024 .f32) (x2 : Vec Ideal S64x1 .f32) (j : Fin 64) :
    hiddenV p x1 x2 (ix2 j (0 : Fin 1))
      = max (∑ k : Fin 1024, x1 (ix2 j k) * p (ix2 k (0 : Fin 1)) + x2 (ix2 j (0 : Fin 1))) zeroW := by
  unfold hiddenV
  rw [maximumf_apply, addf_apply, broadcast_apply, shapeCast_self,
    Cert.Dense.matmul_zero_plain_apply dot_S64x1024_S1024x1_S64x1_1_0_0_1_n_n rfl rfl rfl rfl rfl rfl]
  rfl

/-- The gate at c. -/
theorem gate_apply (h : FVec Ideal S64x1 .f32) (x3 : Vec Ideal S512x64 .f32) (x4 : Vec Ideal S512x1 .f32) (c : Fin 512) :
    gateV h x3 x4 (ix2 c (0 : Fin 1))
      = Ideal.logistic (∑ j : Fin 64, x3 (ix2 c j) * h (ix2 j (0 : Fin 1)) + x4 (ix2 c (0 : Fin 1))) := by
  unfold gateV
  rw [logistic_apply, addf_apply, shapeCast_self,
    Cert.Dense.matmul_zero_plain_apply dot_S512x64_S64x1_S512x1_1_0_0_1_n_n rfl rfl rfl rfl rfl rfl]
  rfl

/-- The blend at (c, n). -/
theorem blendV_apply (g : FVec Ideal S512x1 .f32) (v1 : FVec Ideal S512x4096 .f32) (v56 : Vec Ideal S1x512x4096 .f32)
    (c : Fin 512) (n : Fin 4096) :
    blendV g v1 v56 (ix2 c n)
      = g (ix2 c (0 : Fin 1)) * v1 (ix2 c n)
        + (oneW - g (ix2 c (0 : Fin 1))) * shapeCast S512x4096 v56 shapeCasts_S1x512x4096_S512x4096 (ix2 c n) := by
  unfold blendV
  rw [addf_apply, mulf_apply, mulf_apply, Cert.LibKeepdimsColumn.broadcastTo_a1_ab_apply,
    Cert.LibKeepdimsColumn.broadcastTo_a1_ab_apply, subf_apply, broadcast_apply]
  rfl

/-! ## The block at channel `ch`, position `n` -/

theorem pay2_apply (x0 : Vec Ideal S1x512x4096 .f32) (c : Fin 512) (n : Fin 4096) :
    k0_pay2 x0 (ix2 c n) = rowsOf x0 c n := rows_apply x0 c n

/-- The hidden layer over the pooled column of the block. -/
theorem hiddenOf_apply (x0 : Vec Ideal S1x512x4096 .f32) (x1 : Vec Ideal S64x1024 .f32) (x2 : Vec Ideal S64x1 .f32) (j : Fin 64) :
    hiddenV (truncf .bf16 (pooledV x0 (k0_pay3 x0)) bitsLt_bf16_f32) x1 x2 (ix2 j (0 : Fin 1))
      = Cert.ChannelAttention.hidden (rowsOf x0) (fun j k => x1 (ix2 j k)) (fun j => x2 (ix2 j (0 : Fin 1))) j := by
  rw [hidden_apply]
  unfold Cert.ChannelAttention.hidden
  congr 1
  congr 1
  refine Finset.sum_congr rfl fun k _ => ?_
  show x1 (ix2 j k) * pooledV x0 (k0_pay3 x0) (ix2 k (0 : Fin 1)) = _
  rw [pooled_apply]

/-- The gate over that hidden layer. -/
theorem gateOf_apply (x0 : Vec Ideal S1x512x4096 .f32) (x1 : Vec Ideal S64x1024 .f32) (x2 : Vec Ideal S64x1 .f32)
    (x3 : Vec Ideal S512x64 .f32) (x4 : Vec Ideal S512x1 .f32) (c : Fin 512) :
    gateV (hiddenV (truncf .bf16 (pooledV x0 (k0_pay3 x0)) bitsLt_bf16_f32) x1 x2) x3 x4 (ix2 c (0 : Fin 1))
      = gate (rowsOf x0) (fun j k => x1 (ix2 j k)) (fun j => x2 (ix2 j (0 : Fin 1))) (fun c' j => x3 (ix2 c' j))
          (fun c' => x4 (ix2 c' (0 : Fin 1))) c := by
  rw [gate_apply]
  unfold gate
  congr 1
  congr 1
  refine Finset.sum_congr rfl fun j _ => ?_
  show x3 (ix2 c j) * hiddenV (truncf .bf16 (pooledV x0 (k0_pay3 x0)) bitsLt_bf16_f32) x1 x2 (ix2 j (0 : Fin 1)) = _
  rw [hiddenOf_apply]

/-- The block after the body, at channel `ch` and position `n`, on the extended reals. -/
theorem block_apply (c : Dev nD) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole)
    (x0 : Vec Ideal S1x512x4096 .f32) (x1 : Vec Ideal S64x1024 .f32) (x2 : Vec Ideal S64x1 .f32) (x3 : Vec Ideal S512x64 .f32) (x4 : Vec Ideal S512x1 .f32)
    (ch : Fin 512) (n : Fin 4096) :
    out0_A_5 (F := Ideal) c i arg1 harg1 arg2 harg2 arg3 harg3 arg4 harg4 arg5 harg5 arg6 harg6 x0 x1 x2 x3 x4 (ix3 (0 : Fin 1) ch n)
      = ChannelAttention.blend (fun c' n' => x0 (ix3 (0 : Fin 1) c' n')) (fun j k => x1 (ix2 j k))
          (fun j => x2 (ix2 j (0 : Fin 1))) (fun c' j => x3 (ix2 c' j)) (fun c' => x4 (ix2 c' (0 : Fin 1))) ch n := by
  refine (congrFun (block_eq (F := Ideal) c i arg1 harg1 arg2 harg2 arg3 harg3 arg4 harg4 arg5 harg5 arg6 harg6 x0 x1 x2 x3 x4) _).trans ?_
  rw [secondStore_eq, pooled_eq]
  refine (shapeCast_apply _ shapeCasts_S512x4096_S1x512x4096 (ix3 (0 : Fin 1) ch n) (ix2 ch n) (by
    rw [Shape.rowMajor_val_three, Shape.rowMajor_val_two]
    show ch.val * 4096 + n.val = (0 * 512 + ch.val) * 4096 + n.val
    omega)).trans ?_
  rw [blendV_apply, readBack_apply, pay2_apply, gateOf_apply]
  rfl

end Cert.KernelIdeal.BlockValue

end
-- ==== Proof.KernelArray.lean ====
/-
  From the kernel's blocks to its result array, and the run of the whole program.

  The program flattens each 64 × 64 plane of the input into a row of 4096 (a reshape, so position n of the row is
  row n / 64 and column n % 64 of the plane), turns the two bias vectors into columns, runs the kernel once per batch,
  and unflattens the kernel's result (position 64·h + w of a row is row h, column w of the plane).

  Grid point t works on batch t: its input block and its output block are batch t of their arrays, and the four
  parameter windows are their whole arrays at every point. So, entry by entry, the five blocks the body reads at
  point t are batch t's rows of the input and the four parameter arrays, and what the body leaves at channel ch
  and position n (`BlockValue.block_apply`) is `ChannelAttention.blend` of exactly those: the entry (t, ch, n) of ONE
  array function `regionArray` of the five arguments. Every entry (b, ch, n) of the result array lies in point b's
  block, so the array ends holding `regionArray`; unflattened, that is `ChannelAttention.result`.
-/
import proofs.«153733_j50646254355183_1_alg».proof.Proof.KernelBlock
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

namespace Cert.KernelIdeal.ArrayValue

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)
open Cert.ChannelAttention (flat rowOf colOf batchRows blend)

variable (m : (ℓ : Loc nD τ sig) → Buf (Elt Ideal) ℓ) (ρ : Dev nD → PrngReg)

/-! ## The arrays as the region finds them -/

/-- The kernel's input array is the program's input with each plane flattened. -/
theorem V_v0 (c : Dev nD) : (V m c main_v0 : S16x512x4096.Idx → EReal)
    = shapeCast S16x512x4096 (m ((c.tc : Thread nD τ).loc main_arg0) : S16x512x64x64.Idx → EReal) shapeCasts_S16x512x64x64_S16x512x4096 := by
  show StableHlo.after hostOps0 (fun b => m (c, b)) (Proc.devRef .tc main_v0) = _
  after_results
  rfl

/-- The hidden layer's bias reaches the kernel as a column. -/
theorem V_v1 (c : Dev nD) : (V m c main_v1 : S64x1.Idx → EReal)
    = shapeCast S64x1 (m ((c.tc : Thread nD τ).loc main_arg2) : S64.Idx → EReal) shapeCasts_S64_S64x1 := by
  show StableHlo.after hostOps0 (fun b => m (c, b)) (Proc.devRef .tc main_v1) = _
  after_results
  rfl

/-- The gate's bias reaches the kernel as a column. -/
theorem V_v2 (c : Dev nD) : (V m c main_v2 : S512x1.Idx → EReal)
    = shapeCast S512x1 (m ((c.tc : Thread nD τ).loc main_arg4) : S512.Idx → EReal) shapeCasts_S512_S512x1 := by
  show StableHlo.after hostOps0 (fun b => m (c, b)) (Proc.devRef .tc main_v2) = _
  after_results
  rfl

/-! ## The reshapes at an index -/

/-- Position `n` of a flattened plane is the plane's row `n / 64`, column `n % 64`. -/
theorem flatten_apply (x : S16x512x64x64.Idx → EReal) (b : Fin 16) (ch : Fin 512) (n : Fin 4096) :
    shapeCast S16x512x4096 x shapeCasts_S16x512x64x64_S16x512x4096 (ix3 b ch n) = x (ix4 b ch (rowOf n) (colOf n)) := by
  refine shapeCast_apply x _ (ix3 b ch n) (ix4 b ch (rowOf n) (colOf n)) ?_
  rw [Shape.rowMajor_val_four, Shape.rowMajor_val_three]
  show ((b.val * 512 + ch.val) * 64 + n.val / 64) * 64 + n.val % 64 = (b.val * 512 + ch.val) * 4096 + n.val
  omega

/-- Row `h`, column `w` of an unflattened plane is position `64 h + w` of the row. -/
theorem unflatten_apply (y : S16x512x4096.Idx → EReal) (b : Fin 16) (ch : Fin 512) (h w : Fin 64) :
    shapeCast S16x512x64x64 y shapeCasts_S16x512x4096_S16x512x64x64 (ix4 b ch h w) = y (ix3 b ch (flat h w)) := by
  refine shapeCast_apply y _ (ix4 b ch h w) (ix3 b ch (flat h w)) ?_
  rw [Shape.rowMajor_val_four, Shape.rowMajor_val_three]
  show (b.val * 512 + ch.val) * 4096 + (64 * h.val + w.val) = ((b.val * 512 + ch.val) * 64 + h.val) * 64 + w.val
  omega

/-- Entry `j` of a vector of 64 made a column. -/
theorem column64_apply (x : S64.Idx → EReal) (j : Fin 64) :
    shapeCast S64x1 x shapeCasts_S64_S64x1 (ix2 j (0 : Fin 1)) = x (ix1 j) := by
  refine shapeCast_apply x _ (ix2 j (0 : Fin 1)) (ix1 j) ?_
  rw [Shape.rowMajor_val_one, Shape.rowMajor_val_two]
  show j.val = j.val * 1 + 0
  omega

/-- Entry `j` of a vector of 512 made a column. -/
theorem column512_apply (x : S512.Idx → EReal) (j : Fin 512) :
    shapeCast S512x1 x shapeCasts_S512_S512x1 (ix2 j (0 : Fin 1)) = x (ix1 j) := by
  refine shapeCast_apply x _ (ix2 j (0 : Fin 1)) (ix1 j) ?_
  rw [Shape.rowMajor_val_one, Shape.rowMajor_val_two]
  show j.val = j.val * 1 + 0
  omega

/-! ## Grid points and batches -/

/-- The batch a grid point works on. -/
def batchOf (t : Fin cfg0.N) : Fin 16 := ⟨t.val, by have h := t.isLt; have e : cfg0.N = 16 := N_0; omega⟩

/-- The grid point that works on a batch. -/
def pointOf (b : Fin 16) : Fin cfg0.N := ⟨b.val, by have h := b.isLt; have e : cfg0.N = 16 := N_0; omega⟩

theorem batchOf_pointOf (b : Fin 16) : batchOf (pointOf b) = b := rfl

/-- The index maps, decided over the sixteen points: the input's and the result's blocks are the point's batch,
    every other window's block is its whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The input blocks at coordinates -/

/-- The input block at point `t` is batch `t` of the kernel's input array. -/
theorem iblk0_apply (c : Dev nD) (t : Fin cfg0.N) (ch : Fin 512) (n : Fin 4096) :
    (iblk m c 0 t : Vec Ideal S1x512x4096 .f32) (ix3 (0 : Fin 1) ch n)
      = (V m c main_v0 : S16x512x4096.Idx → EReal) (ix3 (batchOf t) ch n) := by
  obtain ⟨e0, e1, e2, -⟩ := idx_facts t
  unfold iblk
  rw [View.read_apply]
  show (V m c main_v0 : S16x512x4096.Idx → EReal) _ = _
  congr 1
  funext a
  apply Fin.ext
  match a with
  | ⟨0, _⟩ => show win0_0.index t (0 : Fin 3) * 1 + 1 * 0 = t.val; omega
  | ⟨1, _⟩ => show win0_0.index t (1 : Fin 3) * 512 + 1 * ch.val = ch.val; omega
  | ⟨2, _⟩ => show win0_0.index t (2 : Fin 3) * 4096 + 1 * n.val = n.val; omega

/-- The four parameter blocks are their whole arrays at every point. -/
theorem iblk1_apply (c : Dev nD) (t : Fin cfg0.N) (j : Fin 64) (k : Fin 1024) :
    (iblk m c 1 t : Vec Ideal S64x1024 .f32) (ix2 j k) = (V m c main_arg1 : S64x1024.Idx → EReal) (ix2 j k) := by
  obtain ⟨-, -, -, e0, e1, -⟩ := idx_facts t
  unfold iblk
  rw [View.read_apply]
  show (V m c main_arg1 : S64x1024.Idx → EReal) _ = _
  congr 1
  funext a
  apply Fin.ext
  match a with
  | ⟨0, _⟩ => show win0_1.index t (0 : Fin 2) * 64 + 1 * j.val = j.val; omega
  | ⟨1, _⟩ => show win0_1.index t (1 : Fin 2) * 1024 + 1 * k.val = k.val; omega

theorem iblk2_apply (c : Dev nD) (t : Fin cfg0.N) (j : Fin 64) :
    (iblk m c 2 t : Vec Ideal S64x1 .f32) (ix2 j (0 : Fin 1)) = (V m c main_v1 : S64x1.Idx → EReal) (ix2 j (0 : Fin 1)) := by
  obtain ⟨-, -, -, -, -, e0, e1, -⟩ := idx_facts t
  unfold iblk
  rw [View.read_apply]
  show (V m c main_v1 : S64x1.Idx → EReal) _ = _
  congr 1
  funext a
  apply Fin.ext
  match a with
  | ⟨0, _⟩ => show win0_2.index t (0 : Fin 2) * 64 + 1 * j.val = j.val; omega
  | ⟨1, _⟩ => show win0_2.index t (1 : Fin 2) * 1 + 1 * 0 = 0; omega

theorem iblk3_apply (c : Dev nD) (t : Fin cfg0.N) (ch : Fin 512) (j : Fin 64) :
    (iblk m c 3 t : Vec Ideal S512x64 .f32) (ix2 ch j) = (V m c main_arg3 : S512x64.Idx → EReal) (ix2 ch j) := by
  obtain ⟨-, -, -, -, -, -, -, e0, e1, -⟩ := idx_facts t
  unfold iblk
  rw [View.read_apply]
  show (V m c main_arg3 : S512x64.Idx → EReal) _ = _
  congr 1
  funext a
  apply Fin.ext
  match a with
  | ⟨0, _⟩ => show win0_3.index t (0 : Fin 2) * 512 + 1 * ch.val = ch.val; omega
  | ⟨1, _⟩ => show win0_3.index t (1 : Fin 2) * 64 + 1 * j.val = j.val; omega

theorem iblk4_apply (c : Dev nD) (t : Fin cfg0.N) (ch : Fin 512) :
    (iblk m c 4 t : Vec Ideal S512x1 .f32) (ix2 ch (0 : Fin 1)) = (V m c main_v2 : S512x1.Idx → EReal) (ix2 ch (0 : Fin 1)) := by
  obtain ⟨-, -, -, -, -, -, -, -, -, e0, e1, -⟩ := idx_facts t
  unfold iblk
  rw [View.read_apply]
  show (V m c main_v2 : S512x1.Idx → EReal) _ = _
  congr 1
  funext a
  apply Fin.ext
  match a with
  | ⟨0, _⟩ => show win0_4.index t (0 : Fin 2) * 512 + 1 * ch.val = ch.val; omega
  | ⟨1, _⟩ => show win0_4.index t (1 : Fin 2) * 1 + 1 * 0 = 0; omega

/-! ## The input blocks as entries of the arguments -/

/-- The input block at point `t`, channel `ch`, position `n`: batch `t` of the input at the plane's row and column. -/
theorem xblock_apply (c : Dev nD) (t : Fin cfg0.N) (ch : Fin 512) (n : Fin 4096) :
    (iblk m c 0 t : Vec Ideal S1x512x4096 .f32) (ix3 (0 : Fin 1) ch n)
      = (m ((c.tc : Thread nD τ).loc main_arg0) : S16x512x64x64.Idx → EReal) (ix4 (batchOf t) ch (rowOf n) (colOf n)) :=
  (iblk0_apply m c t ch n).trans ((congrFun (V_v0 m c) (ix3 (batchOf t) ch n)).trans (flatten_apply _ (batchOf t) ch n))

theorem w1block_apply (c : Dev nD) (t : Fin cfg0.N) (j : Fin 64) (k : Fin 1024) :
    (iblk m c 1 t : Vec Ideal S64x1024 .f32) (ix2 j k)
      = (m ((c.tc : Thread nD τ).loc main_arg1) : S64x1024.Idx → EReal) (ix2 j k) :=
  (iblk1_apply m c t j k).trans (congrFun (V_main_arg1 m c) (ix2 j k))

theorem b1block_apply (c : Dev nD) (t : Fin cfg0.N) (j : Fin 64) :
    (iblk m c 2 t : Vec Ideal S64x1 .f32) (ix2 j (0 : Fin 1))
      = (m ((c.tc : Thread nD τ).loc main_arg2) : S64.Idx → EReal) (ix1 j) :=
  (iblk2_apply m c t j).trans ((congrFun (V_v1 m c) (ix2 j (0 : Fin 1))).trans (column64_apply _ j))

theorem w2block_apply (c : Dev nD) (t : Fin cfg0.N) (ch : Fin 512) (j : Fin 64) :
    (iblk m c 3 t : Vec Ideal S512x64 .f32) (ix2 ch j)
      = (m ((c.tc : Thread nD τ).loc main_arg3) : S512x64.Idx → EReal) (ix2 ch j) :=
  (iblk3_apply m c t ch j).trans (congrFun (V_main_arg3 m c) (ix2 ch j))

theorem b2block_apply (c : Dev nD) (t : Fin cfg0.N) (ch : Fin 512) :
    (iblk m c 4 t : Vec Ideal S512x1 .f32) (ix2 ch (0 : Fin 1))
      = (m ((c.tc : Thread nD τ).loc main_arg4) : S512.Idx → EReal) (ix1 ch) :=
  (iblk4_apply m c t ch).trans ((congrFun (V_v2 m c) (ix2 ch (0 : Fin 1))).trans (column512_apply _ ch))

/-! ## The region's result array -/

/-- The blend depends on its five arrays only through their entries. -/
theorem blend_congr {X X' : Fin 512 → Fin 4096 → EReal} {W1 W1' : Fin 64 → Fin 1024 → EReal} {B1 B1' : Fin 64 → EReal}
    {W2 W2' : Fin 512 → Fin 64 → EReal} {B2 B2' : Fin 512 → EReal}
    (hX : ∀ c n, X c n = X' c n) (hW1 : ∀ j k, W1 j k = W1' j k) (hB1 : ∀ j, B1 j = B1' j)
    (hW2 : ∀ c j, W2 c j = W2' c j) (hB2 : ∀ c, B2 c = B2' c) (ch : Fin 512) (n : Fin 4096) :
    blend X W1 B1 W2 B2 ch n = blend X' W1' B1' W2' B2' ch n := by
  obtain rfl : X = X' := funext fun c => funext fun n => hX c n
  obtain rfl : W1 = W1' := funext fun j => funext fun k => hW1 j k
  obtain rfl : B1 = B1' := funext hB1
  obtain rfl : W2 = W2' := funext fun c => funext fun j => hW2 c j
  obtain rfl : B2 = B2' := funext hB2
  rfl

/-- What the region leaves in its result array, as a function of the five arguments: at batch `b`, channel `ch` and
    flattened position `n`, the blend of batch `b`'s rows. -/
def regionArray (x : S16x512x64x64.Idx → EReal) (w1 : S64x1024.Idx → EReal) (b1 : S64.Idx → EReal)
    (w2 : S512x64.Idx → EReal) (b2 : S512.Idx → EReal) : S16x512x4096.Idx → EReal :=
  fun i => blend (batchRows x (i 0)) (fun j k => w1 (ix2 j k)) (fun j => b1 (ix1 j)) (fun c j => w2 (ix2 c j))
    (fun c => b2 (ix1 c)) (i 1) (i 2)

/-- The same at core `c`'s arguments. -/
abbrev G (c : Dev nD) : S16x512x4096.Idx → EReal :=
  regionArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- What the body leaves at point `t`, at channel `ch` and position `n`, is the result array at the point's batch. -/
theorem outsAt_apply (c : Dev nD) (t : Fin cfg0.N) (ch : Fin 512) (n : Fin 4096) :
    (outsAt0 m c t : Vec Ideal S1x512x4096 .f32) (ix3 (0 : Fin 1) ch n) = G m c (ix3 (batchOf t) ch n) := by
  unfold outsAt0
  refine (BlockValue.block_apply c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t) ch n).trans ?_
  exact blend_congr (fun c' n' => xblock_apply m c t c' n') (fun j k => w1block_apply m c t j k) (fun j => b1block_apply m c t j)
    (fun c' j => w2block_apply m c t c' j) (fun c' => b2block_apply m c t c') ch n

/-- What point `t` writes back is its block of the result array. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨-, -, -, -, -, -, -, -, -, -, -, e0, e1, e2⟩ := idx_facts t
  refine funext fun (y : S1x512x4096.Idx) => ?_
  rw [View.read_apply]
  have h0 : (y 0).val < 1 := (y 0).isLt
  have hy : y = ix3 (0 : Fin 1) (y 1) (y 2) := by
    funext a
    match a with
    | ⟨0, _⟩ => exact Fin.ext (by show (y 0).val = 0; omega)
    | ⟨1, _⟩ => rfl
    | ⟨2, _⟩ => rfl
  show (outsAt0 m c t : Vec Ideal S1x512x4096 .f32) y = G m c (((cfg0.win 5).blk t).view.emb y)
  have hemb : (((cfg0.win 5).blk t).view.emb y : S16x512x4096.Idx) = ix3 (batchOf t) (y 1) (y 2) := by
    funext a
    apply Fin.ext
    match a with
    | ⟨0, _⟩ => show win0_5.index t (0 : Fin 3) * 1 + 1 * (y 0).val = t.val; omega
    | ⟨1, _⟩ => show win0_5.index t (1 : Fin 3) * 512 + 1 * (y 1).val = (y 1).val; omega
    | ⟨2, _⟩ => show win0_5.index t (2 : Fin 3) * 4096 + 1 * (y 2).val = (y 2).val; omega
  rw [hemb, hy]
  exact outsAt_apply m c t (y 1) (y 2)

/-- Every entry of the result array lies in the block of the point that works on its batch. -/
theorem covered (i : S16x512x4096.Idx) : ∃ t : Fin cfg0.N, (cfg0.win 5).flush t = true ∧ i ∈ ((cfg0.win 5).blk t).view.set := by
  refine ⟨pointOf (i 0), flush0_5 _, ?_⟩
  obtain ⟨-, -, -, -, -, -, -, -, -, -, -, e0, e1, e2⟩ := idx_facts (pointOf (i 0))
  show i ∈ ((View.whole main_v3).slice (win0_5.rect (pointOf (i 0)))).set
  rw [View.set_slice_whole, Rect.mem_set_unit]
  intro a
  have h1 : (i 1).val < 512 := (i 1).isLt
  have h2 : (i 2).val < 4096 := (i 2).isLt
  match a with
  | ⟨0, _⟩ => show win0_5.index (pointOf (i 0)) (0 : Fin 3) * 1 ≤ (i 0).val ∧ (i 0).val < win0_5.index (pointOf (i 0)) (0 : Fin 3) * 1 + 1
              rw [e0]; show (i 0).val * 1 ≤ (i 0).val ∧ (i 0).val < (i 0).val * 1 + 1; omega
  | ⟨1, _⟩ => show win0_5.index (pointOf (i 0)) (1 : Fin 3) * 512 ≤ (i 1).val ∧ (i 1).val < win0_5.index (pointOf (i 0)) (1 : Fin 3) * 512 + 512
              omega
  | ⟨2, _⟩ => show win0_5.index (pointOf (i 0)) (2 : Fin 3) * 4096 ≤ (i 2).val ∧ (i 2).val < win0_5.index (pointOf (i 0)) (2 : Fin 3) * 4096 + 4096
              omega

/-- So the region's result array ends holding `G`. -/
theorem final_v3 (c : Dev nD) : (dats m 0 c).arrAt 5 cfg0.N = G m c :=
  (dats m 0 c).arrAt_eq_of_cover 5 (G m c) (fun t _ => flushed_eq m c t) covered

/-! ## The reshape after the region -/

/-- The result at batch, channel, row and column is the region's array at the flattened position. -/
theorem result_apply (x : S16x512x64x64.Idx → EReal) (w1 : S64x1024.Idx → EReal) (b1 : S64.Idx → EReal)
    (w2 : S512x64.Idx → EReal) (b2 : S512.Idx → EReal) (b : Fin 16) (ch : Fin 512) (h w : Fin 64) :
    Cert.ChannelAttention.result x w1 b1 w2 b2 (ix4 b ch h w) = regionArray x w1 b1 w2 b2 (ix3 b ch (flat h w)) := rfl

/-- What the program's last line leaves in the result: the region's array, unflattened. -/
theorem tail_eq (c : Dev nD) :
    Pipeline.afterTail₀ cfgs (dats m) 0 (V0 m) [hostOps1] c main_v4
      = Cert.ChannelAttention.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have hv3 : (Pipeline.withArrays spec0 c (V0 m c) (fun w => (dats m 0 c).arrAt w cfg0.N) (Proc.devRef .tc main_v3) : S16x512x4096.Idx → EReal)
      = G m c :=
    (Pipeline.withArrays_arr spec0 launch0.win.arr_inj c (V0 m c) (fun w => (dats m 0 c).arrAt w cfg0.N) 5).trans (final_v3 m c)
  unfold Pipeline.afterTail₀
  show StableHlo.after hostOps1 _ (Proc.devRef .tc main_v4) = _
  after_results
  refine funext fun (i : S16x512x64x64.Idx) => ?_
  rw [eq_ix4 i]
  refine (unflatten_apply _ (i 0) (i 1) (i 2) (i 3)).trans ?_
  exact congrFun hv3 (ix3 (i 0) (i 1) (flat (i 2) (i 3)))

/-! ## The run -/

/-- Every execution of the program ends with the result array at `ChannelAttention.result` of the five arguments
    and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.ChannelAttention.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.ArrayValue

end
-- ==== Proof.RefValue.lean ====
/-
  The reference's result array is the channel-attention function of Spec.lean, stage by stage.

  The reference computes, for every batch b (X the batch's 512 × 4096 matrix of flattened planes):
    the Gram matrix of X's rows, each entry taken from its row's maximum, the softmax of the rows of that matrix,
    the rows of X mixed by the softmax, the plane means of X's 512 rows and of the 512 mixed rows, a two-layer gate
    on those 1024 means (a rectified layer, then a logistic one), and the blend gate · X + (1 − gate) · mixed.
  Each lemma below names one intermediate array of the reference, read at explicit coordinates, as the function of
  Spec.lean it is. Three kinds of step occur: a sum or a maximum over an axis re-indexed by that axis's coordinate,
  the product of two extended reals commuted, and a definition unfolded. No finiteness is used.
-/
import proofs.«153733_j50646254355183_1_alg».proof.Proof.RefRead
import proofs.«153733_j50646254355183_1_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
  Cert.ChannelAttention

/-! ## Reductions read at explicit coordinates -/

/-- An index of a [16, 1024, 64, 64] array whose first two coordinates are (b, k) is the index at (b, k) and at the row
    and column of its own flattened plane position. -/
theorem plane_index_eq (h : S16x1024x64x64.ReducesTo [2, 3] S16x1024) (b : Fin 16) (k : Fin 1024)
    (i : S16x1024x64x64.Idx) (hd : h.drop i = ix2 b k) :
    ix4 b k (rowOf (flat (i 2) (i 3))) (colOf (flat (i 2) (i 3))) = i := by
  have h0 : b = i 0 := Fin.ext (congrArg (fun j : S16x1024.Idx => (j 0).val) hd).symm
  have h1 : k = i 1 := Fin.ext (congrArg (fun j : S16x1024.Idx => (j 1).val) hd).symm
  funext a
  match a with
  | ⟨0, _⟩ => exact h0
  | ⟨1, _⟩ => exact h1
  | ⟨2, _⟩ => exact rowOf_flat (i 2) (i 3)
  | ⟨3, _⟩ => exact colOf_flat (i 2) (i 3)

/-- A sum over the two plane axes of a [16, 1024, 64, 64] array, at (b, k), is the initial value plus the sum over the
    4096 positions of the flattened plane: position n stands for row n / 64 and column n % 64, a bijection between the
    4096 positions and the indices whose first two coordinates are (b, k). -/
theorem hostReduceAdd_planes (h : S16x1024x64x64.ReducesTo [2, 3] S16x1024) (y : S16x1024x64x64.Idx → EReal)
    (init : EReal) (b : Fin 16) (k : Fin 1024) :
    Ideal.hostReduceAdd h y init (ix2 b k) = init + ∑ n : Fin 4096, y (ix4 b k (rowOf n) (colOf n)) := by
  unfold Ideal.hostReduceAdd
  refine congrArg (init + ·) ?_
  refine Finset.sum_nbij' (fun i => flat (i 2) (i 3)) (fun n => ix4 b k (rowOf n) (colOf n)) ?_ ?_ ?_ ?_ ?_
  · intro i _; exact Finset.mem_univ _
  · intro n _
    refine Finset.mem_filter.mpr ⟨Finset.mem_univ _, ?_⟩
    funext a
    match a with
    | ⟨0, _⟩ => rfl
    | ⟨1, _⟩ => rfl
  · intro i hi
    exact plane_index_eq h b k i (Finset.mem_filter.mp hi).2
  · intro n _
    exact flat_rowOf_colOf n
  · intro i hi
    exact congrArg y (plane_index_eq h b k i (Finset.mem_filter.mp hi).2).symm

/-- A maximum over the last axis of a [16, 512, 512] array from −∞, at (b, c), is the row maximum of Spec.lean of the
    row (b, c). -/
theorem reduce_max_rows (h' : S16x512x512.ReducesTo [2] S16x512) (hu : 0 < S_.numel) (y : S16x512x512.Idx → EReal)
    (init : S_.Idx → EReal) (hinit : ∀ i, init i = negInf) (b : Fin 16) (c : Fin 512) :
    Host.reduce (FloatOps.maximumf (F := Ideal) (φ := .f32)) y init h' hu (ix2 b c) = rowMax fun d => y (ix3 b c d) := by
  have h : S16x512x512.Reduces [2] S16x512 := by decide
  rw [Host.reduce_eq_fold_single (FloatOps.maximumf (F := Ideal) (φ := .f32)) y init h' h hu (ix2 b c), hinit]
  refine congrArg (Finset.univ.fold max negInf) (funext fun d => congrArg y (funext fun a => Fin.ext ?_))
  match a with
  | ⟨0, _⟩ => rfl
  | ⟨1, _⟩ => rfl
  | ⟨2, _⟩ => rfl

/-! ## The attention matrix -/

section Stages

variable (x0 : (⟨S16x512x64x64, .f32⟩ : BufTy).Contents (Elt Ideal))

/-- The flattened input at (b, c, n) is the batch's matrix entry (c, n). -/
theorem v0_eq (b : Fin 16) (c : Fin 512) (n : Fin 4096) :
    val_main_v0 (F := Ideal) x0 (ix3 b c n) = batchRows x0 b c n := by
  refine (val_main_v0_apply x0 (ix3 b c n)).trans (congrArg x0 (funext fun a => Fin.ext ?_))
  match a with
  | ⟨0, _⟩ => show ((b.val * 512 + c.val) * 4096 + n.val) / 2097152 = b.val; omega
  | ⟨1, _⟩ => show ((b.val * 512 + c.val) * 4096 + n.val) / 4096 % 512 = c.val; omega
  | ⟨2, _⟩ => show ((b.val * 512 + c.val) * 4096 + n.val) / 64 % 64 = n.val / 64; omega
  | ⟨3, _⟩ => show ((b.val * 512 + c.val) * 4096 + n.val) % 64 = n.val % 64; omega

theorem v0_at (i : S16x512x4096.Idx) : val_main_v0 (F := Ideal) x0 i = batchRows x0 (i 0) (i 1) (i 2) :=
  (congrArg (val_main_v0 (F := Ideal) x0) (eq_ix3 i)).trans (v0_eq x0 (i 0) (i 1) (i 2))

/-- The first product is the Gram matrix of the batch's rows. -/
theorem v1_eq (b : Fin 16) (c d : Fin 512) :
    val_main_v1 (F := Ideal) x0 (ix3 b c d) = energy (batchRows x0 b) c d := by
  refine (val_main_v1_apply x0 (ix3 b c d)).trans (Finset.sum_congr rfl fun n _ => ?_)
  exact congrArg₂ (· * ·) (v0_at x0 _) (v0_at x0 _)

/-- The row maximum of the Gram matrix. -/
theorem v2_eq (b : Fin 16) (c : Fin 512) :
    val_main_v2 (F := Ideal) x0 (ix2 b c) = rowMax (energy (batchRows x0 b) c) := by
  unfold val_main_v2
  refine (reduce_max_rows _ _ _ _ (fun _ => rfl) b c).trans (congrArg rowMax (funext fun d => ?_))
  exact v1_eq x0 b c d

theorem v2_at (j : S16x512.Idx) : val_main_v2 (F := Ideal) x0 j = rowMax (energy (batchRows x0 (j 0)) (j 1)) :=
  (congrArg (val_main_v2 (F := Ideal) x0) (eq_ix2 j)).trans (v2_eq x0 (j 0) (j 1))

/-- The row maximum spread over its row. -/
theorem v4_eq (b : Fin 16) (c d : Fin 512) :
    val_main_v4 (F := Ideal) x0 (ix3 b c d) = rowMax (energy (batchRows x0 b) c) :=
  (val_main_v4_apply x0 _).trans ((val_main_v3_apply x0 _).trans (v2_at x0 _))

/-- Each entry of the Gram matrix taken from its row's maximum. -/
theorem v5_eq (b : Fin 16) (c d : Fin 512) :
    val_main_v5 (F := Ideal) x0 (ix3 b c d) = flipped (batchRows x0 b) c d :=
  (val_main_v5_apply x0 (ix3 b c d)).trans
    (congrArg₂ (FloatOps.subf (F := Ideal) (φ := .f32)) (v4_eq x0 b c d) (v1_eq x0 b c d))

/-- The row maximum of that matrix. -/
theorem v6_eq (b : Fin 16) (c : Fin 512) :
    val_main_v6 (F := Ideal) x0 (ix2 b c) = rowMax (flipped (batchRows x0 b) c) := by
  unfold val_main_v6
  refine (reduce_max_rows _ _ _ _ (fun _ => rfl) b c).trans (congrArg rowMax (funext fun d => ?_))
  exact v5_eq x0 b c d

/-- The softmax's shift: the larger of −∞ and the row maximum. -/
theorem v8_eq (b : Fin 16) (c : Fin 512) :
    val_main_v8 (F := Ideal) x0 (ix2 b c) = max negInf (rowMax (flipped (batchRows x0 b) c)) :=
  (val_main_v8_apply x0 (ix2 b c)).trans
    (congrArg₂ (FloatOps.maximumf (F := Ideal) (φ := .f32))
      ((val_main_v7_apply (F := Ideal) (ix2 b c)).trans (val_main_cst_1_apply (F := Ideal) _)) (v6_eq x0 b c))

theorem v8_at (j : S16x512.Idx) :
    val_main_v8 (F := Ideal) x0 j = max negInf (rowMax (flipped (batchRows x0 (j 0)) (j 1))) :=
  (congrArg (val_main_v8 (F := Ideal) x0) (eq_ix2 j)).trans (v8_eq x0 (j 0) (j 1))

theorem v10_eq (b : Fin 16) (c d : Fin 512) :
    val_main_v10 (F := Ideal) x0 (ix3 b c d) = max negInf (rowMax (flipped (batchRows x0 b) c)) :=
  (val_main_v10_apply x0 _).trans ((val_main_v9_apply x0 _).trans (v8_at x0 _))

/-- The softmax's numerator. -/
theorem v12_eq (b : Fin 16) (c d : Fin 512) :
    val_main_v12 (F := Ideal) x0 (ix3 b c d) = weight (batchRows x0 b) c d :=
  (val_main_v12_apply x0 (ix3 b c d)).trans
    (congrArg (FloatOps.hostUnary (F := Ideal) (φ := .f32) .exp)
      ((val_main_v11_apply x0 (ix3 b c d)).trans
        (congrArg₂ (FloatOps.subf (F := Ideal) (φ := .f32)) (v5_eq x0 b c d) (v10_eq x0 b c d))))

theorem v12_at (i : S16x512x512.Idx) :
    val_main_v12 (F := Ideal) x0 i = weight (batchRows x0 (i 0)) (i 1) (i 2) :=
  (congrArg (val_main_v12 (F := Ideal) x0) (eq_ix3 i)).trans (v12_eq x0 (i 0) (i 1) (i 2))

/-- The softmax's denominator: the host's sum starts from the word 0.0, which is zero. -/
theorem v13_eq (b : Fin 16) (c : Fin 512) :
    val_main_v13 (F := Ideal) x0 (ix2 b c) = ∑ d' : Fin 512, weight (batchRows x0 b) c d' := by
  refine (val_main_v13_apply x0 (ix2 b c)).trans ?_
  refine (congrArg₂ (· + ·) (show val_main_cst_2 (F := Ideal) (Shape.Idx.first h_S_) = 0 from zeroW_eq)
    (Finset.sum_congr rfl fun d' _ => v12_at x0 _)).trans ?_
  exact zero_add _

theorem v13_at (j : S16x512.Idx) :
    val_main_v13 (F := Ideal) x0 j = ∑ d' : Fin 512, weight (batchRows x0 (j 0)) (j 1) d' :=
  (congrArg (val_main_v13 (F := Ideal) x0) (eq_ix2 j)).trans (v13_eq x0 (j 0) (j 1))

theorem v15_eq (b : Fin 16) (c d : Fin 512) :
    val_main_v15 (F := Ideal) x0 (ix3 b c d) = ∑ d' : Fin 512, weight (batchRows x0 b) c d' :=
  (val_main_v15_apply x0 _).trans ((val_main_v14_apply x0 _).trans (v13_at x0 _))

/-- The attention matrix. -/
theorem v16_eq (b : Fin 16) (c d : Fin 512) :
    val_main_v16 (F := Ideal) x0 (ix3 b c d) = attn (batchRows x0 b) c d :=
  (val_main_v16_apply x0 (ix3 b c d)).trans
    (congrArg₂ (FloatOps.hostDivf (F := Ideal) (φ := .f32)) (v12_eq x0 b c d) (v15_eq x0 b c d))

theorem v16_at (i : S16x512x512.Idx) :
    val_main_v16 (F := Ideal) x0 i = attn (batchRows x0 (i 0)) (i 1) (i 2) :=
  (congrArg (val_main_v16 (F := Ideal) x0) (eq_ix3 i)).trans (v16_eq x0 (i 0) (i 1) (i 2))

/-- The rows of the batch mixed by the attention matrix. -/
theorem v17_eq (b : Fin 16) (c : Fin 512) (n : Fin 4096) :
    val_main_v17 (F := Ideal) x0 (ix3 b c n) = mixed (batchRows x0 b) c n := by
  refine (val_main_v17_apply x0 (ix3 b c n)).trans (Finset.sum_congr rfl fun d _ => ?_)
  exact congrArg₂ (· * ·) (v16_at x0 _) (v0_at x0 _)

/-- The mixed rows as planes: row h, column w of a plane is position 64 h + w of the row. -/
theorem v18_eq (b : Fin 16) (c : Fin 512) (h w : Fin 64) :
    val_main_v18 (F := Ideal) x0 (ix4 b c h w) = mixed (batchRows x0 b) c (flat h w) := by
  refine (val_main_v18_apply x0 (ix4 b c h w)).trans ?_
  refine (congrArg (val_main_v17 (F := Ideal) x0) (?_ : idx_main_v18 (ix4 b c h w) = ix3 b c (flat h w))).trans
    (v17_eq x0 b c (flat h w))
  funext a
  refine Fin.ext ?_
  match a with
  | ⟨0, _⟩ => show (((b.val * 512 + c.val) * 64 + h.val) * 64 + w.val) / 2097152 = b.val; omega
  | ⟨1, _⟩ => show (((b.val * 512 + c.val) * 64 + h.val) * 64 + w.val) / 4096 % 512 = c.val; omega
  | ⟨2, _⟩ => show (((b.val * 512 + c.val) * 64 + h.val) * 64 + w.val) % 4096 = 64 * h.val + w.val; omega

/-! ## The pooled means -/

/-- The joined array on its first 512 channels is the input. -/
theorem v19_left (b : Fin 16) (k : Fin 1024) (hk : k.val < 512) (h w : Fin 64) :
    val_main_v19 (F := Ideal) x0 (ix4 b k h w) = x0 (ix4 b ⟨k.val, hk⟩ h w) := by
  unfold val_main_v19
  exact concatenate_pair_apply_left (1 : Fin S16x1024x64x64.rank) x0 (val_main_v18 (F := Ideal) x0) _ (ix4 b k h w) rfl
    (ix4 b ⟨k.val, hk⟩ h w) (fun a => by
      match a with
      | ⟨0, _⟩ => rfl
      | ⟨1, _⟩ => rfl
      | ⟨2, _⟩ => rfl
      | ⟨3, _⟩ => rfl)

/-- The joined array on its last 512 channels is the mixed planes. -/
theorem v19_right (b : Fin 16) (k : Fin 1024) (hk : ¬ k.val < 512) (h w : Fin 64) :
    val_main_v19 (F := Ideal) x0 (ix4 b k h w)
      = val_main_v18 (F := Ideal) x0 (ix4 b ⟨k.val - 512, by have := k.isLt; omega⟩ h w) := by
  unfold val_main_v19
  exact concatenate_pair_apply_right (1 : Fin S16x1024x64x64.rank) x0 (val_main_v18 (F := Ideal) x0) _ (ix4 b k h w) rfl rfl
    (ix4 b ⟨k.val - 512, by have := k.isLt; omega⟩ h w) (fun a => by
      match a with
      | ⟨0, _⟩ => intro _; rfl
      | ⟨1, _⟩ => intro hne; exact absurd rfl hne
      | ⟨2, _⟩ => intro _; rfl
      | ⟨3, _⟩ => intro _; rfl)
    (by show (k.val - 512) + 512 = k.val; omega)

/-- The sum of a plane of the joined array: the host's sum starts from the word 0.0, which is zero. -/
theorem v20_eq (b : Fin 16) (k : Fin 1024) :
    val_main_v20 (F := Ideal) x0 (ix2 b k)
      = ∑ n : Fin 4096, val_main_v19 (F := Ideal) x0 (ix4 b k (rowOf n) (colOf n)) := by
  unfold val_main_v20
  refine (hostReduceAdd_apply (val_main_v19 (F := Ideal) x0) (val_main_cst_3 (F := Ideal)) _ h_S_ (ix2 b k)).trans ?_
  refine (hostReduceAdd_planes _ (val_main_v19 (F := Ideal) x0) _ b k).trans ?_
  refine (congrArg (· + _) (show val_main_cst_3 (F := Ideal) (Shape.Idx.first h_S_) = 0 from zeroW_eq)).trans ?_
  exact zero_add _

/-- The plane means: the input's channels, then the mixed channels. -/
theorem v22_eq (b : Fin 16) (k : Fin 1024) :
    val_main_v22 (F := Ideal) x0 (ix2 b k) = pooled (batchRows x0 b) k := by
  have h21 : val_main_v21 (F := Ideal) (ix2 b k) = planeSize :=
    (val_main_v21_apply (F := Ideal) (ix2 b k)).trans (val_main_cst_4_apply (F := Ideal) _)
  refine (val_main_v22_apply x0 (ix2 b k)).trans ?_
  refine (congrArg₂ (FloatOps.hostDivf (F := Ideal) (φ := .f32)) (v20_eq x0 b k) h21).trans ?_
  unfold pooled
  by_cases hk : k.val < 512
  · rw [dif_pos hk]
    refine congrArg (fun s => Ideal.div s planeSize) (Finset.sum_congr rfl fun n _ => ?_)
    exact v19_left x0 b k hk (rowOf n) (colOf n)
  · rw [dif_neg hk]
    refine congrArg (fun s => Ideal.div s planeSize) (Finset.sum_congr rfl fun n _ => ?_)
    refine (v19_right x0 b k hk (rowOf n) (colOf n)).trans ((v18_eq x0 b _ (rowOf n) (colOf n)).trans ?_)
    exact congrArg (mixed (batchRows x0 b) _) (flat_rowOf_colOf n)

theorem v22_at (i : S16x1024.Idx) : val_main_v22 (F := Ideal) x0 i = pooled (batchRows x0 (i 0)) (i 1) :=
  (congrArg (val_main_v22 (F := Ideal) x0) (eq_ix2 i)).trans (v22_eq x0 (i 0) (i 1))

/-! ## The gate -/

variable (x1 : (⟨S64x1024, .f32⟩ : BufTy).Contents (Elt Ideal)) (x2 : (⟨S64, .f32⟩ : BufTy).Contents (Elt Ideal))
  (x3 : (⟨S512x64, .f32⟩ : BufTy).Contents (Elt Ideal)) (x4 : (⟨S512, .f32⟩ : BufTy).Contents (Elt Ideal))

/-- The first layer's product, as the reference writes it: the pooled means times the transposed weights. -/
theorem v24_eq (b : Fin 16) (j : Fin 64) :
    val_main_v24 (F := Ideal) x0 x1 (ix2 b j) = ∑ k : Fin 1024, pooled (batchRows x0 b) k * x1 (ix2 j k) := by
  refine (val_main_v24_apply x0 x1 (ix2 b j)).trans (Finset.sum_congr rfl fun k _ => ?_)
  refine congrArg₂ (· * ·) (v22_at x0 _) ?_
  exact (val_main_v23_apply x1 _).trans (congrArg x1 (eq_ix2 _))

/-- The first layer before its rectifier: the product commuted, plus the bias. -/
theorem v27_eq (b : Fin 16) (j : Fin 64) :
    val_main_v27 (F := Ideal) x0 x1 x2 (ix2 b j)
      = ∑ k : Fin 1024, x1 (ix2 j k) * pooled (batchRows x0 b) k + x2 (ix1 j) := by
  refine (val_main_v27_apply x0 x1 x2 (ix2 b j)).trans ?_
  refine congrArg₂ (FloatOps.addf (F := Ideal) (φ := .f32)) ?_ ?_
  · exact (v24_eq x0 x1 b j).trans (Finset.sum_congr rfl fun k _ => mul_comm _ _)
  · exact (val_main_v26_apply x2 _).trans ((val_main_v25_apply x2 _).trans (congrArg x2 (eq_ix1 _)))

/-- The hidden layer. -/
theorem v28_eq (b : Fin 16) (j : Fin 64) :
    val_main_v28 (F := Ideal) x0 x1 x2 (ix2 b j)
      = hidden (batchRows x0 b) (fun j k => x1 (ix2 j k)) (fun j => x2 (ix1 j)) j :=
  (val_main_v28_apply x0 x1 x2 (ix2 b j)).trans
    (congrArg₂ (FloatOps.maximumf (F := Ideal) (φ := .f32)) (v27_eq x0 x1 x2 b j)
      ((val_main_call0_v0_apply (F := Ideal) (ix2 b j)).trans (val_main_call0_cst_apply (F := Ideal) _)))

theorem v28_at (i : S16x64.Idx) :
    val_main_v28 (F := Ideal) x0 x1 x2 i
      = hidden (batchRows x0 (i 0)) (fun j k => x1 (ix2 j k)) (fun j => x2 (ix1 j)) (i 1) :=
  (congrArg (val_main_v28 (F := Ideal) x0 x1 x2) (eq_ix2 i)).trans (v28_eq x0 x1 x2 (i 0) (i 1))

/-- The second layer before its logistic: the product commuted, plus the bias. -/
theorem v33_eq (b : Fin 16) (c : Fin 512) :
    val_main_v33 (F := Ideal) x0 x1 x2 x3 x4 (ix2 b c)
      = ∑ j : Fin 64, x3 (ix2 c j) * hidden (batchRows x0 b) (fun j k => x1 (ix2 j k)) (fun j => x2 (ix1 j)) j
        + x4 (ix1 c) := by
  refine (val_main_v33_apply x0 x1 x2 x3 x4 (ix2 b c)).trans ?_
  refine congrArg₂ (FloatOps.addf (F := Ideal) (φ := .f32)) ?_ ?_
  · refine (val_main_v30_apply x0 x1 x2 x3 (ix2 b c)).trans (Finset.sum_congr rfl fun j _ => ?_)
    refine (congrArg₂ (· * ·) (v28_at x0 x1 x2 _) ?_).trans (mul_comm _ _)
    exact (val_main_v29_apply x3 _).trans (congrArg x3 (eq_ix2 _))
  · exact (val_main_v32_apply x4 _).trans ((val_main_v31_apply x4 _).trans (congrArg x4 (eq_ix1 _)))

/-- The gate: the reference spells the logistic function negate, exponential, add one, divide one by it. -/
theorem v39_eq (b : Fin 16) (c : Fin 512) :
    val_main_v39 (F := Ideal) x0 x1 x2 x3 x4 (ix2 b c)
      = gate (batchRows x0 b) (fun j k => x1 (ix2 j k)) (fun j => x2 (ix1 j)) (fun c j => x3 (ix2 c j))
          (fun c => x4 (ix1 c)) c := by
  have h38 : val_main_v38 (F := Ideal) (ix2 b c) = 1 :=
    ((val_main_v38_apply (F := Ideal) (ix2 b c)).trans (val_main_cst_6_apply (F := Ideal) _)).trans oneW_eq
  have h36 : val_main_v36 (F := Ideal) (ix2 b c) = 1 :=
    ((val_main_v36_apply (F := Ideal) (ix2 b c)).trans (val_main_cst_5_apply (F := Ideal) _)).trans oneW_eq
  have h35 := (val_main_v35_apply x0 x1 x2 x3 x4 (ix2 b c)).trans
    (congrArg (FloatOps.hostUnary (F := Ideal) (φ := .f32) .exp)
      ((val_main_v34_apply x0 x1 x2 x3 x4 (ix2 b c)).trans
        (congrArg (FloatOps.hostNegf (F := Ideal) (φ := .f32)) (v33_eq x0 x1 x2 x3 x4 b c))))
  have h37 := (val_main_v37_apply x0 x1 x2 x3 x4 (ix2 b c)).trans
    (congrArg₂ (FloatOps.addf (F := Ideal) (φ := .f32)) h36 h35)
  exact (val_main_v39_apply x0 x1 x2 x3 x4 (ix2 b c)).trans
    (congrArg₂ (FloatOps.hostDivf (F := Ideal) (φ := .f32)) h38 h37)

theorem v39_at (i : S16x512.Idx) :
    val_main_v39 (F := Ideal) x0 x1 x2 x3 x4 i
      = gate (batchRows x0 (i 0)) (fun j k => x1 (ix2 j k)) (fun j => x2 (ix1 j)) (fun c j => x3 (ix2 c j))
          (fun c => x4 (ix1 c)) (i 1) :=
  (congrArg (val_main_v39 (F := Ideal) x0 x1 x2 x3 x4) (eq_ix2 i)).trans (v39_eq x0 x1 x2 x3 x4 (i 0) (i 1))

/-! ## The blend -/

/-- The gate spread over its channel's plane. -/
theorem v41_eq (b : Fin 16) (c : Fin 512) (h w : Fin 64) :
    val_main_v41 (F := Ideal) x0 x1 x2 x3 x4 (ix4 b c h w)
      = gate (batchRows x0 b) (fun j k => x1 (ix2 j k)) (fun j => x2 (ix1 j)) (fun c j => x3 (ix2 c j))
          (fun c => x4 (ix1 c)) c :=
  (val_main_v41_apply x0 x1 x2 x3 x4 _).trans ((val_main_v40_apply x0 x1 x2 x3 x4 _).trans (v39_at x0 x1 x2 x3 x4 _))

/-- One minus the gate, spread over its channel's plane. -/
theorem v45_eq (b : Fin 16) (c : Fin 512) (h w : Fin 64) :
    val_main_v45 (F := Ideal) x0 x1 x2 x3 x4 (ix4 b c h w)
      = oneW - gate (batchRows x0 b) (fun j k => x1 (ix2 j k)) (fun j => x2 (ix1 j)) (fun c j => x3 (ix2 c j))
          (fun c => x4 (ix1 c)) c :=
  (val_main_v45_apply x0 x1 x2 x3 x4 _).trans ((val_main_v44_apply x0 x1 x2 x3 x4 _).trans
    (congrArg₂ (FloatOps.subf (F := Ideal) (φ := .f32))
      ((val_main_v43_apply (F := Ideal) _).trans (val_main_cst_7_apply (F := Ideal) _))
      ((val_main_v40_apply x0 x1 x2 x3 x4 _).trans (v39_at x0 x1 x2 x3 x4 _))))

/-- The reference's result at (b, c, h, w). -/
theorem v47_eq (b : Fin 16) (c : Fin 512) (h w : Fin 64) :
    val_main_v47 (F := Ideal) x0 x1 x2 x3 x4 (ix4 b c h w)
      = blend (batchRows x0 b) (fun j k => x1 (ix2 j k)) (fun j => x2 (ix1 j)) (fun c j => x3 (ix2 c j))
          (fun c => x4 (ix1 c)) c (flat h w) := by
  have hx : x0 (ix4 b c h w) = batchRows x0 b c (flat h w) := by
    show x0 (ix4 b c h w) = x0 (ix4 b c (rowOf (flat h w)) (colOf (flat h w)))
    rw [rowOf_flat, colOf_flat]
  refine (val_main_v47_apply x0 x1 x2 x3 x4 (ix4 b c h w)).trans ?_
  refine congrArg₂ (FloatOps.addf (F := Ideal) (φ := .f32)) ?_ ?_
  · exact (val_main_v42_apply x0 x1 x2 x3 x4 (ix4 b c h w)).trans
      (congrArg₂ (FloatOps.mulf (F := Ideal) (φ := .f32)) (v41_eq x0 x1 x2 x3 x4 b c h w) hx)
  · exact (val_main_v46_apply x0 x1 x2 x3 x4 (ix4 b c h w)).trans
      (congrArg₂ (FloatOps.mulf (F := Ideal) (φ := .f32)) (v45_eq x0 x1 x2 x3 x4 b c h w) (v18_eq x0 b c h w))

end Stages

/-- The reference's result array is the channel-attention function of its five argument arrays. -/
theorem val_eq_result (x0 : (⟨S16x512x64x64, .f32⟩ : BufTy).Contents (Elt Ideal))
    (x1 : (⟨S64x1024, .f32⟩ : BufTy).Contents (Elt Ideal)) (x2 : (⟨S64, .f32⟩ : BufTy).Contents (Elt Ideal))
    (x3 : (⟨S512x64, .f32⟩ : BufTy).Contents (Elt Ideal)) (x4 : (⟨S512, .f32⟩ : BufTy).Contents (Elt Ideal)) :
    Cert.ReferenceIdeal.Read.val_main_v47 (F := Ideal) x0 x1 x2 x3 x4 = Cert.ChannelAttention.result x0 x1 x2 x3 x4 := by
  funext i
  exact (congrArg (val_main_v47 (F := Ideal) x0 x1 x2 x3 x4) (eq_ix4 i)).trans
    (v47_eq x0 x1 x2 x3 x4 (i 0) (i 1) (i 2) (i 3))

end Cert.ReferenceIdeal.RefValue

end
-- ==== Proof.lean ====
/-
  Channel self-attention over 512 channels with a squeeze-and-excitation gate, one batch per grid point, against its
  jnp reference, over the extended reals.

  For one batch, with X the input as a 512 × 4096 matrix, both programs compute the Gram matrix X·Xᵀ, take every entry
  from its row's maximum, form the softmax of each row, mix the channels by it, pool the input and the mixed channels
  over their planes, pass the 1024 means through two small dense layers (a rectifier after the first, a logistic
  function after the second) and blend each channel with its mixed version by the resulting gate:
  `ChannelAttention.result` (Proof/Spec.lean) is that function of the five argument arrays.

  The kernel: what its body leaves in the output block is the second of its two stores, with the first read back
  (Proof/KernelBlock.lean); read at a channel and a position it is `ChannelAttention.blend` of the input blocks; the
  blocks tile the result along the batch axis, and the reshape after the region lays each row of 4096 positions out as
  a 64 × 64 plane (Proof/KernelArray.lean). The reference: its operations read one at a time (Proof/RefRead.lean,
  Proof/RefRun.lean) compose to the same function (Proof/RefValue.lean). What joins the two sides is the reindexing of
  finite sums (a plane's 64 × 64 positions against a row's 4096; the pooled means taken before or after joining the
  two halves) and the commutativity of a product — laws of all extended reals, so the finiteness of the inputs is
  never used. The narrowing of the matrix products' operands to bf16 is the identity on the extended reals, and the
  logistic function is by definition 1 / (1 + e⁻ˣ), which is how the reference spells it.
-/
import proofs.«153733_j50646254355183_1_alg».proof.Defs
import proofs.«153733_j50646254355183_1_alg».proof.Proof.Gen.Kernel
import proofs.«153733_j50646254355183_1_alg».proof.Proof.Gen.Kernel.Skeleton
import proofs.«153733_j50646254355183_1_alg».proof.Proof.Gen.Kernel.Launch
import proofs.«153733_j50646254355183_1_alg».proof.Proof.Gen.Kernel.Points
import proofs.«153733_j50646254355183_1_alg».proof.Proof.Gen.Kernel.Frame
import proofs.«153733_j50646254355183_1_alg».proof.Proof.Gen.KernelIdeal
import proofs.«153733_j50646254355183_1_alg».proof.Proof.Gen.KernelIdeal.Skeleton
import proofs.«153733_j50646254355183_1_alg».proof.Proof.Gen.KernelIdeal.Launch
import proofs.«153733_j50646254355183_1_alg».proof.Proof.Gen.KernelIdeal.Points
import proofs.«153733_j50646254355183_1_alg».proof.Proof.Gen.KernelIdeal.Frame
import proofs.«153733_j50646254355183_1_alg».proof.Proof.Gen.ReferenceIdeal
import proofs.«153733_j50646254355183_1_alg».proof.Proof.RefRead
import proofs.«153733_j50646254355183_1_alg».proof.Proof.RefRun
import proofs.«153733_j50646254355183_1_alg».proof.Proof.KernelBlock
import proofs.«153733_j50646254355183_1_alg».proof.Proof.Gen.Pre_finite_inputs
import Idealize.ShloMosaic.Adequacy
import Idealize.ShloMosaic.Init
import proofs.«153733_j50646254355183_1_alg».proof.Proof.Spec
import proofs.«153733_j50646254355183_1_alg».proof.Proof.KernelArray
import proofs.«153733_j50646254355183_1_alg».proof.Proof.RefValue

noncomputable section

namespace Cert.Proof

open Idealize.ShloMosaic Idealize.ShloMosaic.TcCoe Idealize.SL.Sem

/-- The word-level kernel and the idealized kernel run, and leave their arguments as they were: the generated frames. -/
theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the one function `ChannelAttention.result` of their arguments, which agree. -/
theorem algebraic :
    Cert.algebraic_KernelIdeal_ReferenceIdeal := by
  intro m ρ m' ρ' _ hagree
  refine ⟨fun c => Cert.ChannelAttention.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.val_eq_result, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
